-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1x64 : Shape := ⟨2, ![1, 64]⟩
abbrev S64x64 : Shape := ⟨2, ![64, 64]⟩
abbrev S1600000x64 : Shape := ⟨2, ![1600000, 64]⟩
abbrev S100000x1 : Shape := ⟨2, ![100000, 1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S1600000 32) (main_v33 : IVec S_ 1) : IVec S_ 1 :=
  let main_c_12 : IVec S_ 32 := constantI S_ 32 4294867296#32
  let main_v34 : IVec S1600000 32 := broadcastInDim S1600000 ![] bcast_S_S1600000 main_c_12
  let main_v35 : IVec S1600000 1 := cmpi .sge main_arg7 main_v34
  let main_c_13 : IVec S_ 32 := constantI S_ 32 100000#32
  let main_v36 : IVec S1600000 32 := broadcastInDim S1600000 ![] bcast_S_S1600000 main_c_13
  let main_v37 : IVec S1600000 1 := cmpi .slt main_arg7 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  main_v40

def fn_part1 {F : FTy → Type} [FloatOps F] (main_arg4 : FVec F S1600000x64 .f32) (main_arg5 : FVec F S100000x1 .f32) (main_arg6 : FVec F S100000x1 .f32) (main_arg7 : IVec S1600000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1600000x64 .f32 := Host.absf main_arg4
  let main_cst_6 : FVec F S_ .f32 := constant S_ .f32 0x7F800000#32
  let main_v20 : FVec F S1600000x64 .f32 := broadcastInDim S1600000x64 ![] bcast_S_S1600000x64 main_cst_6
  let main_v21 : IVec S1600000x64 1 := cmpf .olt main_v19 main_v20
  let main_c_7 : IVec S_ 1 := constantI S_ 1 1#1
  let main_v22 : IVec S_ 1 := (fun x v => Host.reduce IntOp.andi x v reducesTo_S1600000x64_S_d0_1 h_S_) main_v21 main_c_7
  let main_v23 : IVec S_ 1 := andi main_v18 main_v22
  let main_v24 : FVec F S100000x1 .f32 := Host.absf main_arg5
  let main_cst_8 : FVec F S_ .f32 := constant S_ .f32 0x7F800000#32
  let main_v25 : FVec F S100000x1 .f32 := broadcastInDim S100000x1 ![] bcast_S_S100000x1 main_cst_8
  let main_v26 : IVec S100000x1 1 := cmpf .olt main_v24 main_v25
  let main_c_9 : IVec S_ 1 := constantI S_ 1 1#1
  let main_v27 : IVec S_ 1 := (fun x v => Host.reduce IntOp.andi x v reducesTo_S100000x1_S_d0_1 h_S_) main_v26 main_c_9
  let main_v28 : IVec S_ 1 := andi main_v23 main_v27
  let main_v29 : FVec F S100000x1 .f32 := Host.absf main_arg6
  let main_cst_10 : FVec F S_ .f32 := constant S_ .f32 0x7F800000#32
  let main_v30 : FVec F S100000x1 .f32 := broadcastInDim S100000x1 ![] bcast_S_S100000x1 main_cst_10
  let main_v31 : IVec S100000x1 1 := cmpf .olt main_v29 main_v30
  let main_c_11 : IVec S_ 1 := constantI S_ 1 1#1
  let main_v32 : IVec S_ 1 := (fun x v => Host.reduce IntOp.andi x v reducesTo_S100000x1_S_d0_1 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S1x64 .f32) (main_arg2 : FVec F S1x64 .f32) (main_arg3 : FVec F S64x64 .f32) (main_arg4 : FVec F S1600000x64 .f32) (main_arg5 : FVec F S100000x1 .f32) (main_arg6 : FVec F S100000x1 .f32) (main_arg7 : IVec S1600000 32) (main_arg8 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S100000x64 : Shape := ⟨2, ![100000, 64]⟩
abbrev S1x64 : Shape := ⟨2, ![1, 64]⟩
abbrev S64x64 : Shape := ⟨2, ![64, 64]⟩
abbrev S1600000x64 : Shape := ⟨2, ![1600000, 64]⟩
abbrev S100000x1 : Shape := ⟨2, ![100000, 1]⟩
abbrev S1600000 : Shape := ⟨1, ![1600000]⟩
abbrev S100000x65 : Shape := ⟨2, ![100000, 65]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x65 : Shape := ⟨2, ![1600000, 65]⟩
abbrev S8000x64 : Shape := ⟨2, ![8000, 64]⟩
abbrev S8000x65 : Shape := ⟨2, ![8000, 65]⟩
abbrev S8000x1 : Shape := ⟨2, ![8000, 1]⟩
abbrev S8000 : Shape := ⟨1, ![8000]⟩
abbrev S4000x64 : Shape := ⟨2, ![4000, 64]⟩
abbrev S4000x1 : Shape := ⟨2, ![4000, 1]⟩

abbrev nBuf : Space → Nat
  | .hbm => 39
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S1x64, .f32⟩
  | .hbm, ⟨2, _⟩ => ⟨S1x64, .f32⟩
  | .hbm, ⟨3, _⟩ => ⟨S64x64, .f32⟩
  | .hbm, ⟨4, _⟩ => ⟨S1600000x64, .f32⟩
  | .hbm, ⟨5, _⟩ => ⟨S100000x1, .f32⟩
  | .hbm, ⟨6, _⟩ => ⟨S100000x1, .f32⟩
  | .hbm, ⟨7, _⟩ => ⟨S1600000, .i32⟩
  | .hbm, ⟨8, _⟩ => ⟨S1600000, .i32⟩
  | .hbm, ⟨9, _⟩ => ⟨S100000x65, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x65, .f32⟩
  | .hbm, ⟨29, _⟩ => ⟨S1600000x65, .i1⟩
  | .hbm, ⟨30, _⟩ => ⟨S_, .f32⟩
  | .hbm, ⟨31, _⟩ => ⟨S1600000x65, .f32⟩
  | .hbm, ⟨32, _⟩ => ⟨S1600000x65, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x65, .f32⟩
  | .local _ .vmem, ⟨3, _⟩ => ⟨S8000x65, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S8000x64, .f32⟩
  | .local _ .vmem, ⟨8, _⟩ => ⟨S8000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S4000x64, .f32⟩
  | .local _ .vmem, ⟨14, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S100000x64_S100000x1_S100000x65_d1 : Shape.Concatenates [S100000x64, S100000x1] S100000x65 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x65_0 : S1600000.BroadcastsInDim S1600000x65 (![0] : Fin 1 → Fin S1600000x65.rank)
  bcast_S_S1600000x65 : S_.BroadcastsInDim S1600000x65 (![] : Fin 0 → Fin S1600000x65.rank)
  inb_S8000x64_S8000x64_0_0 : ∀ a, (![0, 0] : Fin 2 → Nat) a + S8000x64.size a ≤ S8000x64.size a
  h_S8000x64 : 0 < S8000x64.numel
  inb_S8000x65_S8000x65_0_0 : ∀ a, (![0, 0] : Fin 2 → Nat) a + S8000x65.size a ≤ S8000x65.size a
  h_S8000x65 : 0 < S8000x65.numel
  shapeCasts_S8000x65_S8000x65 : S8000x65.ShapeCasts S8000x65
  slices_S8000x65_o0_0_S8000x64 : S8000x65.Slices ![0, 0] S8000x64
  slices_S8000x65_o0_64_S8000x1 : S8000x65.Slices ![0, 64] S8000x1
  inb_S1x64_S1x64_0_0 : ∀ a, (![0, 0] : Fin 2 → Nat) a + S1x64.size a ≤ S1x64.size a
  h_S1x64 : 0 < S1x64.numel
  inb_S64x64_S64x64_0_0 : ∀ a, (![0, 0] : Fin 2 → Nat) a + S64x64.size a ≤ S64x64.size a
  h_S64x64 : 0 < S64x64.numel
  broadcasts_S1x64_S8000x64 : S1x64.Broadcasts S8000x64
  reduces_S8000x64_S8000 : S8000x64.Reduces [1] S8000
  shapeCasts_S8000_S8000x1 : S8000.ShapeCasts S8000x1
  bitsLt_bf16_f32 : FTy.bits .bf16 < FTy.bits .f32
  transposes_S64x64_p1_0_S64x64 : S64x64.Transposes [1, 0] S64x64
  broadcasts_S8000x1_S8000x64 : S8000x1.Broadcasts S8000x64
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  broadcasts_S4000x1_S4000x64 : S4000x1.Broadcasts S4000x64
  gather_S100000x65_S1600000x1_S1600000x65_1_0_n_n_0_1_165_wf : GatherDims.WF S100000x65 S1600000x1 S1600000x65 [1] [0] [] [0] [] 1 ![1, 65]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x65.size a ≤ S1600000x65.size a
  hwx0_1 : ∀ i : grid0.Coords, EltTy.bits .f32 = 32 ∨ (Rect.block (s := S1600000x65) S8000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S1x64 : Shape := ⟨2, ![1, 64]⟩
abbrev S64x64 : Shape := ⟨2, ![64, 64]⟩
abbrev S1600000x64 : Shape := ⟨2, ![1600000, 64]⟩
abbrev S100000x1 : Shape := ⟨2, ![100000, 1]⟩
abbrev S1600000 : Shape := ⟨1, ![1600000]⟩
abbrev S64x1 : Shape := ⟨2, ![64, 1]⟩
abbrev S1600000x1 : Shape := ⟨2, ![1600000, 1]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1x64, .f32⟩
  | .hbm, ⟨2, _⟩ => ⟨S1x64, .f32⟩
  | .hbm, ⟨3, _⟩ => ⟨S64x64, .f32⟩
  | .hbm, ⟨4, _⟩ => ⟨S1600000x64, .f32⟩
  | .hbm, ⟨5, _⟩ => ⟨S100000x1, .f32⟩
  | .hbm, ⟨6, _⟩ => ⟨S100000x1, .f32⟩
  | .hbm, ⟨7, _⟩ => ⟨S1600000, .i32⟩
  | .hbm, ⟨8, _⟩ => ⟨S1600000, .i32⟩
  | .hbm, ⟨9, _⟩ => ⟨S64x1, .f32⟩
  | .hbm, ⟨10, _⟩ => ⟨S1600000x1, .f32⟩
  | .hbm, ⟨11, _⟩ => ⟨S1600000x1, .f32⟩
  | .hbm, ⟨12, _⟩ => ⟨S1600000x1, .f32⟩
  | .hbm, ⟨13, _⟩ => ⟨S_, .f32⟩
  | .hbm, ⟨14, _⟩ => ⟨S1600000x1, .f32⟩
  | .hbm, ⟨15, _⟩ => ⟨S1600000x1, .f32⟩
  | .hbm, ⟨16, _⟩ => ⟨S_, .f32⟩
  | .hbm, ⟨17, _⟩ => ⟨S1600000x1, .f32⟩
  | .hbm, ⟨18, _⟩ => ⟨S1600000x1, .f32⟩
  | .hbm, ⟨19, _⟩ => ⟨S64x64, .f32⟩
  | .hbm, ⟨20, _⟩ => ⟨S1600000x64, .f32⟩
  | .hbm, ⟨21, _⟩ => ⟨S64x1, .f32⟩
  | .hbm, ⟨22, _⟩ => ⟨S1600000x1, .f32⟩
  | .hbm, ⟨23, _⟩ => ⟨S1600000x1, .f32⟩
  | .hbm, ⟨24, _⟩ => ⟨S1600000x1, .f32⟩
  | .hbm, ⟨25, _⟩ => ⟨S_, .f32⟩
  | .hbm, ⟨26, _⟩ => ⟨S1600000x1, .f32⟩
  | .hbm, ⟨27, _⟩ => ⟨S1600000x1, .f32⟩
  | .hbm, ⟨28, _⟩ => ⟨S_, .f32⟩
  | .hbm, ⟨29, _⟩ => ⟨S1600000x1, .f32⟩
  | .hbm, ⟨30, _⟩ => ⟨S1600000x1, .f32⟩
  | .hbm, ⟨31, _⟩ => ⟨S1600000x64, .f32⟩
  | .hbm, ⟨32, _⟩ => ⟨S1600000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  transposes_S1x64_S64x1_1_0 : S1x64.Transposes [1, 0] S64x1
  bcast_S_S1600000x1 : S_.BroadcastsInDim S1600000x1 (![] : Fin 0 → Fin S1600000x1.rank)
  transposes_S64x64_S64x64_1_0 : S64x64.Transposes [1, 0] S64x64
  bcast_S1600000x1_S1600000x64_0_1 : S1600000x1.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1600000x64_S64x1_S1600000x1_1_0_0_1_n_n_wf : DotDims.WF S1600000x64 S64x1 S1600000x1 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1

variable [Facts₀]

def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.PreRange.lean ====
/-
  The added conjunct of the precondition, read back: every entry of the source-index array lies in [−100000, 100000),
  the range in which it names a row of a table of 100000 rows (a negative entry counting from the end).
-/
import proofs.«423922_j14456859918894_1_alg».proof.Pre_finite_inputs
import Idealize.ShloMosaic.Lib.ReduceAll
import Idealize.ShloMosaic.Lib.Affine
import Idealize.ShloMosaic.Lib.ValueIdx

noncomputable section

namespace PreRange

open Idealize.ShloMosaic Cert.Pre_finite_inputs

variable {F : FTy → Type} [FloatOps F] [Cert.Pre_finite_inputs.Facts]

/-- The precondition is a conjunction whose last conjunct says that every source index is at least −100000 and
    below 100000: the conjunction being one, so is that conjunct, at every entry. -/
theorem src_range (a0 : FVec F S100000x64 .f32) (a1 a2 : FVec F S1x64 .f32) (a3 : FVec F S64x64 .f32)
    (a4 : FVec F S1600000x64 .f32) (a5 a6 : FVec F S100000x1 .f32) (a7 a8 : IVec S1600000 32)
    (h : fn (F := F) a0 a1 a2 a3 a4 a5 a6 a7 a8 = fun _ => 1#1) (i : S1600000.Idx) :
    (-100000 : Int) ≤ (a7 i).toInt ∧ (a7 i).toInt < 100000 := by
  have h0 := congrFun h ValueIdx.ix0
  unfold fn at h0
  dsimp only [fn_part1, fn_part2] at h0
  have h1 := (IntOp.andi_eq_one.mp h0).2
  haveI : Subsingleton S_.Idx := ⟨fun a b => funext fun d => d.elim0⟩
  have h2 := Host.reduce_andi_all _ _ _ _ _ h1 i
  obtain ⟨hge, hlt⟩ := IntOp.andi_eq_one.mp h2
  have hge' := IntOp.cmpi_sge.mp hge
  have hlt' := IntOp.cmpi_slt.mp hlt
  have e1 : (4294867296#32 : BitVec 32).toInt = -100000 := by decide
  have e2 : (100000#32 : BitVec 32).toInt = 100000 := by decide
  exact ⟨e1 ▸ hge', e2 ▸ hlt'⟩

end PreRange

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.EdgeMessage.lean ====
/-
  The message an edge sends, entry by entry, and the two kernel bodies read at an index.

  For edge p with feature row f = rf[p, :] and gathered table row a = aug[p, :] (64 weights, then the source
  node's norm in column 64), entry q of the message is

      ( a[q] · σ(f · pw)  +  (f · rw[q, :]) · σ(f · rsw) ) · a[64],

  σ the logistic function, f · v the dot product over the 64 features. The statement is for any number of rows, so it
  serves a block of edges and the whole edge array alike. The scaling kernel multiplies row p by the p-th entry of a
  column.
-/
import proofs.«423922_j14456859918894_1_alg».proof.Proof.Gen.KernelIdeal.Skeleton
import proofs.«423922_j14456859918894_1_alg».proof.Proof.LibRowLayers

noncomputable section

open scoped BigOperators

namespace EdgeMessage

open Idealize.ShloMosaic Idealize.ShloMosaic.ValueIdx RowLayers

variable {m : ℕ}

/-- Entry q of the message of edge p: the gathered weight gated by the logistic of the row's first projection, plus
    the row's 64 × 64 projection gated by the logistic of its second projection, all times the gathered norm. -/
def msgAt (rf : (⟨2, ![m, 64]⟩ : Shape).Idx → EReal) (aug : (⟨2, ![m, 65]⟩ : Shape).Idx → EReal)
    (pw rsw : (⟨2, ![1, 64]⟩ : Shape).Idx → EReal) (rw : (⟨2, ![64, 64]⟩ : Shape).Idx → EReal) (p : Fin m) (q : Fin 64) : EReal :=
  (aug (ix2 p (⟨q.val, by omega⟩ : Fin 65)) * Ideal.logistic (∑ c : Fin 64, rf (ix2 p c) * pw (ix2 (0 : Fin 1) c))
    + (∑ c : Fin 64, rf (ix2 p c) * rw (ix2 q c)) * Ideal.logistic (∑ c : Fin 64, rf (ix2 p c) * rsw (ix2 (0 : Fin 1) c)))
  * aug (ix2 p (⟨64, by omega⟩ : Fin 65))

/-- The logistic of an array, entry by entry. -/
theorem logistic_apply {s : Shape} {φ : FTy} (a : FVec Ideal s φ) (i : s.Idx) : logistic a i = Ideal.logistic (a i) := rfl

/-- An m × k matrix times a k × n matrix on the matrix unit, from a zero accumulator, at (a, b): the sum over the
    contracted coordinate of the products of the entries. -/
theorem matmulPlain_apply {k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  rw [← StackMember.dotGeneral_plain_apply prec A B a b]
  show _ = FloatOps.dotGeneral _ prec _ A B (ix2 a b)
  rw [Ideal.dotGeneral_apply]

/-- The gate of a row: the logistic of the row's dot product with a vector, spread along a row of k' entries. In the
    tiled spelling the products are summed along the columns, the sums made a column, the logistic taken, and the column
    broadcast across. -/
theorem gate_apply {k k' : ℕ} (hb1 : (⟨2, ![1, k]⟩ : Shape).Broadcasts ⟨2, ![m, k]⟩)
    (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k']⟩)
    (x : FVec Ideal ⟨2, ![m, k]⟩ .f32) (v : FVec Ideal ⟨2, ![1, k]⟩ .f32) (p : Fin m) (q : Fin k') :
    broadcastTo ⟨2, ![m, k']⟩ (logistic (shapeCast ⟨2, ![m, 1]⟩
        (multiReduction .add [1] ⟨1, ![m]⟩ (mulf x (broadcastTo ⟨2, ![m, k]⟩ v hb1)) 0x00000000#32 hred hfmt hacc) hsc)) hbc (ix2 p q)
      = Ideal.logistic (∑ c : Fin k, x (ix2 p c) * v (ix2 (0 : Fin 1) c)) := by
  rw [broadcastColumn_apply, logistic_apply, column_apply, Ideal.multiReduction_add_single]
  congr 1
  refine Finset.sum_congr rfl fun c _ => ?_
  rw [lift_cols, mulf_apply, broadcastTo_1b_ab_apply]
  rfl

open Cert.KernelIdeal Cert.KernelIdeal.Gen in
/-- The edge kernel's stored value at (p, q) is the message entry of its blocks: the first 64 columns of the table block
    are the weights, column 64 the norm; narrowing to bf16 is the identity on extended reals; the transposed 64 × 64
    operand read at (c, q) is the matrix at (q, c). -/
theorem pay_apply [Cert.KernelIdeal.Facts] (x0 : Vec Ideal S8000x64 .f32) (x1 : Vec Ideal S8000x65 .f32)
    (x2 x3 : Vec Ideal S1x64 .f32) (x4 : Vec Ideal S64x64 .f32) (p : Fin 8000) (q : Fin 64) :
    k0_pay1 x0 x1 x2 x3 x4 (ix2 p q) = msgAt x0 x1 x2 x3 x4 p q := by
  have hd : dot_S8000x64_S64x64_S8000x64_1_0_0_1_n_n = DotDims.plain 8000 64 64 := rfl
  unfold k0_pay1 msgAt
  dsimp only
  rw [hd]
  rw [mulf_apply, addf_apply, mulf_apply, mulf_apply, shapeCast_self]
  refine congrArg₂ (· * ·) (congrArg₂ (· + ·) (congrArg₂ (· * ·) ?_ ?_) (congrArg₂ (· * ·) ?_ ?_)) ?_
  · exact slice2_axis1_apply 0 x1 _ p q ⟨q.val, by omega⟩ (Nat.zero_add _).symm
  · exact gate_apply _ _ _ _ _ _ x0 x2 p q
  · exact (matmulPlain_apply none _ _ p q).trans
      (Finset.sum_congr rfl fun c _ => congrArg (x0 (ix2 p c) * ·) (transpose_ix2_apply _ _ c q))
  · exact gate_apply _ _ _ _ _ _ x0 x3 p q
  · exact (broadcastColumn_apply _ _ p q).trans
      (slice2_axis1_apply 64 x1 _ p (0 : Fin 1) ⟨64, by omega⟩ rfl)

open Cert.KernelIdeal Cert.KernelIdeal.Gen in
/-- The scaling kernel's stored value at (p, q): the block's entry times the column's entry of row p. -/
theorem scale_apply [Cert.KernelIdeal.Facts] (x0 : Vec Ideal S4000x64 .f32) (x1 : Vec Ideal S4000x1 .f32) (p : Fin 4000) (q : Fin 64) :
    k1_pay1 x0 x1 (ix2 p q) = x0 (ix2 p q) * x1 (ix2 p (0 : Fin 1)) := by
  unfold k1_pay1
  rw [mulf_apply, shapeCast_self]
  exact congrArg (x0 (ix2 p q) * ·) (broadcastColumn_apply _ _ p q)

end EdgeMessage

end
-- ==== Proof.EdgeRegion.lean ====
/-
  The edge kernel's region: after its 200 grid points the output array holds the message array.

  Point t stages rows 8000·t … 8000·t + 7999 of the feature array and of the gathered table, and the three small
  parameter arrays whole; the body stores the message entries of those rows, and the write-back puts them in the same
  rows of the output. The 200 blocks tile the 1600000 rows.
-/
import proofs.«423922_j14456859918894_1_alg».proof.Proof.Gen.KernelIdeal.Frame
import proofs.«423922_j14456859918894_1_alg».proof.Proof.EdgeMessage
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace EdgeRegion

open Cert.KernelIdeal Cert.KernelIdeal.Gen Idealize.ShloMosaic.ValueIdx EdgeMessage

/-- The message entry reads row p of the feature block and of the table block only: if those are rows σ p of two larger
    arrays, and the parameter arrays are the same, it is the message entry of row σ p of the larger arrays. -/
theorem msgAt_rows {m M : ℕ} (σ : Fin m → Fin M)
    (rf : (⟨2, ![m, 64]⟩ : Shape).Idx → EReal) (aug : (⟨2, ![m, 65]⟩ : Shape).Idx → EReal)
    (RF : (⟨2, ![M, 64]⟩ : Shape).Idx → EReal) (AUG : (⟨2, ![M, 65]⟩ : Shape).Idx → EReal)
    (pw rsw PW RSW : (⟨2, ![1, 64]⟩ : Shape).Idx → EReal) (rw RW : (⟨2, ![64, 64]⟩ : Shape).Idx → EReal)
    (hrf : ∀ p c, rf (ix2 p c) = RF (ix2 (σ p) c)) (haug : ∀ p c, aug (ix2 p c) = AUG (ix2 (σ p) c))
    (hpw : pw = PW) (hrsw : rsw = RSW) (hrw : rw = RW) (p : Fin m) (q : Fin 64) :
    msgAt rf aug pw rsw rw p q = msgAt RF AUG PW RSW RW (σ p) q := by
  subst hpw hrsw hrw
  unfold msgAt
  rw [haug, haug]
  simp only [hrf]

variable (V : (c : Dev nD) → (b : Ref sig .tc) → Buf (Elt Ideal) ((c : Thread nD τ).loc b))

theorem hz : (![0, 0] : Fin 2 → Nat) = fun _ => 0 := funext fun a => by fin_cases a <;> rfl

/-- The five arrays as the region finds them: the edge features, the gathered table, the two projection vectors and
    the 64 × 64 projection matrix. -/
abbrev rfArr (c : Dev nD) : FVec Ideal S1600000x64 .f32 := V c (Pipeline.arrRef spec0 0)
abbrev augArr (c : Dev nD) : FVec Ideal S1600000x65 .f32 := V c (Pipeline.arrRef spec0 1)
abbrev pwArr (c : Dev nD) : FVec Ideal S1x64 .f32 := V c (Pipeline.arrRef spec0 2)
abbrev rswArr (c : Dev nD) : FVec Ideal S1x64 .f32 := V c (Pipeline.arrRef spec0 3)
abbrev rwArr (c : Dev nD) : FVec Ideal S64x64 .f32 := V c (Pipeline.arrRef spec0 4)

/-- The message array of those arrays. -/
def msgArr (c : Dev nD) : FVec Ideal S1600000x64 .f32 := fun i =>
  msgAt (rfArr V c) (augArr V c) (pwArr V c) (rswArr V c) (rwArr V c) (i 0) (i 1)

/-- The printed index maps over the grid: the two edge-indexed inputs and the output are at block row t, the three
    parameter arrays at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 8000) : t.val * 8000 + p.val < 1600000 := by
  have := t.isLt; have hN : cfg0.N = 200 := N_0; have := p.isLt; omega

/-- Row p of point t's feature block is row 8000·t + p of the feature array. -/
theorem rf_blk (c : Dev nD) (t : Fin cfg0.N) (p : Fin 8000) (k : Fin 64) :
    (iblk0 V c 0 t : Vec Ideal S8000x64 .f32) (ix2 p k) = rfArr V c (ix2 ⟨t.val * 8000 + p.val, row_lt t p⟩ k) := by
  obtain ⟨e0, e1, -⟩ := idx_facts t
  unfold iblk0
  rw [View.read_apply]
  show V c _ _ = V c _ _
  congr 1
  funext a
  apply Fin.ext
  match a with
  | ⟨0, _⟩ => show win0_0.index t (0 : Fin 2) * 8000 + 1 * p.val = t.val * 8000 + p.val; rw [e0]; omega
  | ⟨1, _⟩ => show win0_0.index t (1 : Fin 2) * 64 + 1 * k.val = k.val; rw [e1]; omega

/-- Row p of point t's table block is row 8000·t + p of the gathered table. -/
theorem aug_blk (c : Dev nD) (t : Fin cfg0.N) (p : Fin 8000) (k : Fin 65) :
    (iblk0 V c 1 t : Vec Ideal S8000x65 .f32) (ix2 p k) = augArr V c (ix2 ⟨t.val * 8000 + p.val, row_lt t p⟩ k) := by
  obtain ⟨-, -, e0, e1, -⟩ := idx_facts t
  unfold iblk0
  rw [View.read_apply]
  show V c _ _ = V c _ _
  congr 1
  funext a
  apply Fin.ext
  match a with
  | ⟨0, _⟩ => show win0_1.index t (0 : Fin 2) * 8000 + 1 * p.val = t.val * 8000 + p.val; rw [e0]; omega
  | ⟨1, _⟩ => show win0_1.index t (1 : Fin 2) * 65 + 1 * k.val = k.val; rw [e1]; omega

/-- The three parameter blocks are the parameter arrays. -/
theorem pw_blk (c : Dev nD) (t : Fin cfg0.N) : (iblk0 V c 2 t : Vec Ideal S1x64 .f32) = pwArr V c := by
  obtain ⟨-, -, -, -, e0, e1, -⟩ := idx_facts t
  funext y
  unfold iblk0
  rw [View.read_apply]
  show V c _ _ = V c _ _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem rsw_blk (c : Dev nD) (t : Fin cfg0.N) : (iblk0 V c 3 t : Vec Ideal S1x64 .f32) = rswArr V c := by
  obtain ⟨-, -, -, -, -, -, e0, e1, -⟩ := idx_facts t
  funext y
  unfold iblk0
  rw [View.read_apply]
  show V c _ _ = V c _ _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem rw_blk (c : Dev nD) (t : Fin cfg0.N) : (iblk0 V c 4 t : Vec Ideal S64x64 .f32) = rwArr V c := by
  obtain ⟨-, -, -, -, -, -, -, -, e0, e1, -⟩ := idx_facts t
  funext y
  unfold iblk0
  rw [View.read_apply]
  show V c _ _ = V c _ _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- What the body leaves in the output window's buffer, entry by entry: the message entries of its blocks. -/
theorem out_apply (x0 : Vec Ideal S8000x64 .f32) (x1 : Vec Ideal S8000x65 .f32) (x2 x3 : Vec Ideal S1x64 .f32)
    (x4 : Vec Ideal S64x64 .f32) (p : Fin 8000) (q : Fin 64) :
    out0_5 x0 x1 x2 x3 x4 (ix2 p q) = msgAt x0 x1 x2 x3 x4 p q := by
  unfold out0_5
  rw [View.canon_unit_zero hz]
  simp only [View.ld_unit_zero (S := S8000x64) hz, View.ld_unit_zero (S := S8000x65) hz,
    View.ld_unit_zero (S := S1x64) hz, View.ld_unit_zero (S := S64x64) hz]
  exact pay_apply x0 x1 x2 x3 x4 p q

/-- What point t writes back is block t of the message array. -/
theorem flushed_eq (c : Dev nD) (t : Fin cfg0.N) :
    (dat0 V c).flushed 5 t = ((cfg0.win 5).blk t).view.read (Elt Ideal) (msgArr V c) := by
  show (cfg0.win 5).cut (grid0.coords t) ((dat0 V c).after 5 t) = _
  rw [after0_5]
  obtain ⟨-, -, -, -, -, -, -, -, -, -, e0, e1⟩ := idx_facts t
  funext y
  obtain ⟨p, q, rfl⟩ : ∃ (p : Fin 8000) (q : Fin 64), y = ix2 p q := ⟨y 0, y 1, eq_ix2 y⟩
  have hi : ((cfg0.win 5).blk t).view.emb (ix2 p q) = (ix2 ⟨t.val * 8000 + p.val, row_lt t p⟩ q : S1600000x64.Idx) := by
    funext a
    apply Fin.ext
    match a with
    | ⟨0, _⟩ => show win0_5.index t (0 : Fin 2) * 8000 + 1 * p.val = t.val * 8000 + p.val; rw [e0]; omega
    | ⟨1, _⟩ => show win0_5.index t (1 : Fin 2) * 64 + 1 * q.val = q.val; rw [e1]; omega
  show out0_5 (iblk0 V c 0 t) (iblk0 V c 1 t) (iblk0 V c 2 t) (iblk0 V c 3 t) (iblk0 V c 4 t) (ix2 p q)
    = msgArr V c (((cfg0.win 5).blk t).view.emb (ix2 p q))
  rw [hi]
  refine (out_apply (iblk0 V c 0 t) (iblk0 V c 1 t) (iblk0 V c 2 t) (iblk0 V c 3 t) (iblk0 V c 4 t) p q).trans ?_
  exact msgAt_rows (fun p : Fin 8000 => (⟨t.val * 8000 + p.val, row_lt t p⟩ : Fin 1600000))
    (iblk0 V c 0 t) (iblk0 V c 1 t) (rfArr V c) (augArr V c) (iblk0 V c 2 t) (iblk0 V c 3 t) (pwArr V c) (rswArr V c)
    (iblk0 V c 4 t) (rwArr V c) (rf_blk V c t) (aug_blk V c t) (pw_blk V c t) (rsw_blk V c t) (rw_blk V c t) p q

/-- An index of the output array is in point t's block iff each coordinate is in the block's range on its axis. -/
theorem mem_blk (t : Fin cfg0.N) (i : S1600000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v2).slice (win0_5.rect t)).set ↔ _
  rw [View.set_slice_whole, Rect.mem_set_unit]
  exact Iff.rfl

/-- Every index of the output array is in the block of the point its row number divided by 8000 names. -/
theorem cover (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 200 := N_0
  have hlt : (i 0).val / 8000 < cfg0.N := by omega
  obtain ⟨-, -, -, -, -, -, -, -, -, -, e0, e1⟩ := idx_facts ⟨(i 0).val / 8000, hlt⟩
  refine ⟨⟨(i 0).val / 8000, hlt⟩, flush0_5 _, ?_⟩
  rw [mem_blk]
  intro a
  match a with
  | ⟨0, _⟩ =>
    show win0_5.index ⟨(i 0).val / 8000, hlt⟩ (0 : Fin 2) * 8000 ≤ (i 0).val
      ∧ (i 0).val < win0_5.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win0_5.index ⟨(i 0).val / 8000, hlt⟩ (1 : Fin 2) * 64 ≤ (i 1).val
      ∧ (i 1).val < win0_5.index ⟨(i 0).val / 8000, hlt⟩ (1 : Fin 2) * 64 + 64
    rw [e1]; omega

/-- The output array after the region: the message array of the arrays the region found. -/
theorem final (c : Dev nD) : (dat0 V c).arrAt 5 cfg0.N = msgArr V c :=
  (dat0 V c).arrAt_eq_of_cover 5 (msgArr V c) (fun t _ => flushed_eq V c t) (cover)

end EdgeRegion

end
-- ==== Proof.ScaleRegion.lean ====
/-
  The scaling kernel's region: after its 25 grid points the output array holds each row of the summed messages times
  that row's entry of the destination norm.

  Point t stages rows 4000·t … 4000·t + 3999 of both inputs, the body multiplies, the write-back puts the products in
  the same rows of the output. The 25 blocks tile the 100000 rows.
-/
import proofs.«423922_j14456859918894_1_alg».proof.Proof.Gen.KernelIdeal.Frame
import proofs.«423922_j14456859918894_1_alg».proof.Proof.EdgeMessage
import Idealize.ShloMosaic.Lib.Pipeline.Value

set_option maxRecDepth 16384

noncomputable section

open Idealize.ShloMosaic Idealize.ShloMosaic.TcCoe Idealize.SL.Sem
open Idealize.ShloMosaic.Pipeline (Dat)

namespace ScaleRegion

open Cert.KernelIdeal Cert.KernelIdeal.Gen Idealize.ShloMosaic.ValueIdx EdgeMessage

variable (V : (c : Dev nD) → (b : Ref sig .tc) → Buf (Elt Ideal) ((c : Thread nD τ).loc b))

theorem hz : (![0, 0] : Fin 2 → Nat) = fun _ => 0 := funext fun a => by fin_cases a <;> rfl

/-- The two arrays as the region finds them: the summed messages and the destination norm (a column). -/
abbrev hArr (c : Dev nD) : FVec Ideal S100000x64 .f32 := V c (Pipeline.arrRef spec1 0)
abbrev ciArr (c : Dev nD) : FVec Ideal S100000x1 .f32 := V c (Pipeline.arrRef spec1 1)

/-- Row r of the result: row r of the summed messages times the norm of node r. -/
def outArr (c : Dev nD) : FVec Ideal S100000x64 .f32 := fun i =>
  hArr V c (ix2 (i 0) (i 1)) * ciArr V c (ix2 (i 0) (0 : Fin 1))

/-- The printed index maps over the grid: all three windows are at block row t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem row_lt (t : Fin cfg1.N) (p : Fin 4000) : t.val * 4000 + p.val < 100000 := by
  have := t.isLt; have hN : cfg1.N = 25 := N_1; have := p.isLt; omega

/-- Row p of point t's block of summed messages is row 4000·t + p of the array. -/
theorem h_blk (c : Dev nD) (t : Fin cfg1.N) (p : Fin 4000) (k : Fin 64) :
    (iblk1 V c 0 t : Vec Ideal S4000x64 .f32) (ix2 p k) = hArr V c (ix2 ⟨t.val * 4000 + p.val, row_lt t p⟩ k) := by
  obtain ⟨e0, e1, -⟩ := idx_facts t
  unfold iblk1
  rw [View.read_apply]
  show V c _ _ = V c _ _
  congr 1
  funext a
  apply Fin.ext
  match a with
  | ⟨0, _⟩ => show win1_0.index t (0 : Fin 2) * 4000 + 1 * p.val = t.val * 4000 + p.val; rw [e0]; omega
  | ⟨1, _⟩ => show win1_0.index t (1 : Fin 2) * 64 + 1 * k.val = k.val; rw [e1]; omega

/-- Row p of point t's block of the norm is row 4000·t + p of the norm. -/
theorem ci_blk (c : Dev nD) (t : Fin cfg1.N) (p : Fin 4000) (k : Fin 1) :
    (iblk1 V c 1 t : Vec Ideal S4000x1 .f32) (ix2 p k) = ciArr V c (ix2 ⟨t.val * 4000 + p.val, row_lt t p⟩ k) := by
  obtain ⟨-, -, e0, e1, -⟩ := idx_facts t
  unfold iblk1
  rw [View.read_apply]
  show V c _ _ = V c _ _
  congr 1
  funext a
  apply Fin.ext
  match a with
  | ⟨0, _⟩ => show win1_1.index t (0 : Fin 2) * 4000 + 1 * p.val = t.val * 4000 + p.val; rw [e0]; omega
  | ⟨1, _⟩ => show win1_1.index t (1 : Fin 2) * 1 + 1 * k.val = k.val; rw [e1]; omega

/-- What the body leaves in the output window's buffer, entry by entry. -/
theorem out_apply (x0 : Vec Ideal S4000x64 .f32) (x1 : Vec Ideal S4000x1 .f32) (p : Fin 4000) (q : Fin 64) :
    out1_2 x0 x1 (ix2 p q) = x0 (ix2 p q) * x1 (ix2 p (0 : Fin 1)) := by
  unfold out1_2
  rw [View.canon_unit_zero hz]
  simp only [View.ld_unit_zero (S := S4000x64) hz, View.ld_unit_zero (S := S4000x1) hz]
  exact scale_apply x0 x1 p q

/-- What point t writes back is block t of the result. -/
theorem flushed_eq (c : Dev nD) (t : Fin cfg1.N) :
    (dat1 V c).flushed 2 t = ((cfg1.win 2).blk t).view.read (Elt Ideal) (outArr V c) := by
  show (cfg1.win 2).cut (grid1.coords t) ((dat1 V c).after 2 t) = _
  rw [after1_2]
  obtain ⟨-, -, -, -, e0, e1⟩ := idx_facts t
  funext y
  obtain ⟨p, q, rfl⟩ : ∃ (p : Fin 4000) (q : Fin 64), y = ix2 p q := ⟨y 0, y 1, eq_ix2 y⟩
  have hi : ((cfg1.win 2).blk t).view.emb (ix2 p q) = (ix2 ⟨t.val * 4000 + p.val, row_lt t p⟩ q : S100000x64.Idx) := by
    funext a
    apply Fin.ext
    match a with
    | ⟨0, _⟩ => show win1_2.index t (0 : Fin 2) * 4000 + 1 * p.val = t.val * 4000 + p.val; rw [e0]; omega
    | ⟨1, _⟩ => show win1_2.index t (1 : Fin 2) * 64 + 1 * q.val = q.val; rw [e1]; omega
  show out1_2 (iblk1 V c 0 t) (iblk1 V c 1 t) (ix2 p q) = outArr V c (((cfg1.win 2).blk t).view.emb (ix2 p q))
  rw [hi]
  refine (out_apply (iblk1 V c 0 t) (iblk1 V c 1 t) p q).trans ?_
  exact congrArg₂ (· * ·) (h_blk V c t p q) (ci_blk V c t p 0)

/-- An index of the output array is in point t's block iff each coordinate is in the block's range on its axis. -/
theorem mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v6).slice (win1_2.rect t)).set ↔ _
  rw [View.set_slice_whole, Rect.mem_set_unit]
  exact Iff.rfl

/-- Every index of the output array is in the block of the point its row number divided by 4000 names. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  have hlt : (i 0).val / 4000 < cfg1.N := by omega
  obtain ⟨-, -, -, -, e0, e1⟩ := idx_facts ⟨(i 0).val / 4000, hlt⟩
  refine ⟨⟨(i 0).val / 4000, hlt⟩, flush1_2 _, ?_⟩
  rw [mem_blk]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_2.index ⟨(i 0).val / 4000, hlt⟩ (1 : Fin 2) * 64 ≤ (i 1).val
      ∧ (i 1).val < win1_2.index ⟨(i 0).val / 4000, hlt⟩ (1 : Fin 2) * 64 + 64
    rw [e1]; omega

/-- The output array after the region: the row-scaled array of the arrays the region found. -/
theorem final (c : Dev nD) : (dat1 V c).arrAt 2 cfg1.N = outArr V c :=
  (dat1 V c).arrAt_eq_of_cover 2 (outArr V c) (fun t _ => flushed_eq V c t) (cover)

end ScaleRegion

end
-- ==== Proof.RefMessage.lean ====
/-
  The reference's message array, entry by entry.

  The reference gathers the weight rows and the source norms separately; laid side by side they form the 65-column table
  the kernel gathers in one piece. With that table the reference's per-edge message is the same expression as the
  kernel's: its logistic is spelt 1 / (1 + exp (−x)), which is the logistic function, and its dot products are sums over
  the 64 features of the same products.
-/
import proofs.«423922_j14456859918894_1_alg».proof.Proof.Gen.ReferenceIdeal.Read
import proofs.«423922_j14456859918894_1_alg».proof.Proof.EdgeMessage
import Idealize.ShloMosaic.Lib.IdealHost

noncomputable section

open scoped BigOperators

namespace RefMessage

open Cert.ReferenceIdeal Cert.ReferenceIdeal.Gen Cert.ReferenceIdeal.Read Idealize.ShloMosaic Idealize.ShloMosaic.ValueIdx EdgeMessage

/-- The reference's two gathers side by side: columns 0 … 63 the gathered weight rows, column 64 the gathered norm. -/
def augRef (x0 : FVec Ideal S100000x64 .f32) (x5 : FVec Ideal S100000x1 .f32) (x7 : IVec S1600000 32) :
    (⟨2, ![1600000, 65]⟩ : Shape).Idx → EReal := fun i =>
  if h : (i 1).val < 64 then val_main_v26 (F := Ideal) x0 x7 (ix2 (i 0) (⟨(i 1).val, h⟩ : Fin 64))
  else val_main_v36 (F := Ideal) x5 x7 (ix2 (i 0) (0 : Fin 1))

/-- The logistic function in the host's spelling, with the two ones as the printed words. -/
theorem host_logistic (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  show FloatOps.hostDivf (F := Ideal) (φ := .f32) (Ideal.ofBits .f32 0x3F800000#32)
      (FloatOps.addf (Ideal.ofBits .f32 0x3F800000#32) (FloatOps.hostUnary .exp (FloatOps.hostNegf x))) = _
  rw [Ideal.ofBits_one_f32]
  rfl

/-- Left of column 64 the table is the gathered weight row. -/
theorem augRef_left (x0 : FVec Ideal S100000x64 .f32) (x5 : FVec Ideal S100000x1 .f32) (x7 : IVec S1600000 32)
    (e : Fin 1600000) (j : Fin 64) :
    augRef x0 x5 x7 (ix2 e (⟨j.val, by omega⟩ : Fin 65)) = val_main_v26 (F := Ideal) x0 x7 (ix2 e j) := by
  unfold augRef
  exact dif_pos j.isLt

/-- Column 64 of the table is the gathered norm. -/
theorem augRef_right (x0 : FVec Ideal S100000x64 .f32) (x5 : FVec Ideal S100000x1 .f32) (x7 : IVec S1600000 32)
    (e : Fin 1600000) :
    augRef x0 x5 x7 (ix2 e (⟨64, by omega⟩ : Fin 65)) = val_main_v36 (F := Ideal) x5 x7 (ix2 e (0 : Fin 1)) := by
  unfold augRef
  exact dif_neg (Nat.lt_irrefl 64)

/-- The reference's message entry (e, j) is the message entry of the feature array, the table and the three parameter
    arrays. -/
theorem ref_msg (x0 : FVec Ideal S100000x64 .f32) (x1 x2 : FVec Ideal S1x64 .f32) (x3 : FVec Ideal S64x64 .f32)
    (x4 : FVec Ideal S1600000x64 .f32) (x5 : FVec Ideal S100000x1 .f32) (x7 : IVec S1600000 32)
    (e : Fin 1600000) (j : Fin 64) :
    val_main_v38 (F := Ideal) x0 x1 x2 x3 x4 x5 x7 (ix2 e j) = msgAt x4 (augRef x0 x5 x7) x1 x2 x3 e j := by
  rw [val_main_v38_apply, val_main_v29_apply, val_main_v28_apply, val_main_v19_apply, val_main_v37_apply,
    val_main_v27_apply, val_main_v18_apply, val_main_v7_apply, val_main_v17_apply, val_main_v6_apply, val_main_v16_apply,
    val_main_cst_0_apply, val_main_cst_2_apply, val_main_v5_apply, val_main_v15_apply, val_main_v4_apply, val_main_v14_apply,
    val_main_cst_apply, val_main_cst_1_apply, val_main_v3_apply, val_main_v13_apply, val_main_v2_apply, val_main_v12_apply,
    host_logistic, host_logistic, val_main_v1_apply, val_main_v11_apply, val_main_v9_apply]
  have hl1 : ∀ k : Fin 64, lidx_main_v1 (idx_main_v27 (ix2 e j)) k = ix2 e k := fun k =>
    funext fun a => by match a with | ⟨0, _⟩ => rfl | ⟨1, _⟩ => rfl
  have hr1 : ∀ k : Fin 64, idx_main_v0 (ridx_main_v1 (idx_main_v27 (ix2 e j)) k) = ix2 (0 : Fin 1) k := fun k =>
    funext fun a => by match a with | ⟨0, _⟩ => rfl | ⟨1, _⟩ => rfl
  have hl9 : ∀ k : Fin 64, lidx_main_v9 (ix2 e j) k = ix2 e k := fun k =>
    funext fun a => by match a with | ⟨0, _⟩ => rfl | ⟨1, _⟩ => rfl
  have hr9 : ∀ k : Fin 64, idx_main_v8 (ridx_main_v9 (ix2 e j) k) = ix2 j k := fun k =>
    funext fun a => by match a with | ⟨0, _⟩ => rfl | ⟨1, _⟩ => rfl
  have hl11 : ∀ k : Fin 64, lidx_main_v11 (idx_main_v18 (ix2 e j)) k = ix2 e k := fun k =>
    funext fun a => by match a with | ⟨0, _⟩ => rfl | ⟨1, _⟩ => rfl
  have hr11 : ∀ k : Fin 64, idx_main_v10 (ridx_main_v11 (idx_main_v18 (ix2 e j)) k) = ix2 (0 : Fin 1) k := fun k =>
    funext fun a => by match a with | ⟨0, _⟩ => rfl | ⟨1, _⟩ => rfl
  have h37 : idx_main_v37 (ix2 e j) = ix2 e (0 : Fin 1) :=
    funext fun a => by match a with | ⟨0, _⟩ => rfl | ⟨1, _⟩ => rfl
  simp only [val_main_v0_apply, val_main_v8_apply, val_main_v10_apply, hl1, hr1, hl9, hr9, hl11, hr11, h37]
  unfold msgAt
  rw [augRef_left, augRef_right]
  rfl

end RefMessage

end
-- ==== Proof.LibRowGather.lean ====
/-
  A gather of whole rows of a matrix, read at an index; and a reduction by "and" of a mask that is one everywhere.

  The gather takes row number idx[e, 0] of an N × D matrix for each e, the number read as a signed integer and clamped
  into [0, N − 1]; entry (e, j) of the result is entry j of that row.
-/
import Idealize.ShloMosaic.Lib.ValueIdx
import Idealize.ShloMosaic.Lib.Affine
import Idealize.ShloMosaic.Lib.ReduceAll
import Idealize.ShloMosaic.Lib.StableHlo.Predicate

noncomputable section

namespace RowGather

open Idealize.ShloMosaic Idealize.ShloMosaic.ValueIdx

variable {α : Type}

/-- The dimension numbers of a row lookup in an N × D matrix at E start indices kept as an E × 1 column: the row axis
    collapsed and start-indexed, the column axis the one offset axis, no batching axes, the index vector along axis 1,
    slices of one whole row. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of a gather of rows is entry j of the row whose number is the start index at (e, 0), read signed and
    clamped into the matrix. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 ⟨min (idx (ix2 e (0 : Fin 1))).toInt.toNat (N - 1), by omega⟩ j) := by
  unfold Host.gather
  congr 1
  funext a
  refine Fin.ext ?_
  show (rowDims N D E wf).start (ix2 e j) idx a + (rowDims N D E wf).batchCoord (ix2 e j) a
    + (rowDims N D E wf).offCoord (ix2 e j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N D E wf).startIndexMap from List.mem_singleton.mpr rfl)]
    have hsi : (rowDims N D E wf).siIdx (ix2 e j) ⟨List.idxOf (⟨0, by omega⟩ : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    unfold GatherDims.start
    rw [dif_neg (show (⟨1, by omega⟩ : Fin 2) ∉ (rowDims N D E wf).startIndexMap from fun h =>
      absurd (congrArg Fin.val (List.mem_singleton.mp h)) Nat.one_ne_zero)]
    simp only [Nat.zero_add]
    rfl

/-- A left fold by "and" from one over words that are all one stays one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by "and", started from one, of a mask that is one everywhere is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones _ (fun n => hx _) _

/-! ## An index wrapped the way array indexing wraps it

A negative index i counts from the end: it stands for i + N. For −N ≤ i < N the wrapped index lies in [0, N). -/

/-- The wrapped index, as the printed programs compute it on 32-bit words: i + N where i is negative, else i. -/
abbrev wrapIdx (N : Nat) (i : BitVec 32) : BitVec 32 :=
  Scalar.select (IntOp.cmpi .slt i 0#32) (IntOp.addi i (BitVec.ofNat 32 N)) i

/-- For −N ≤ i < N the wrapped index is in [0, N − 1] (no 32-bit overflow: N is far below 2³¹). -/
theorem wrapIdx_range (N : Nat) (hN : N < 2 ^ 30) (i : BitVec 32) (h0 : -(N : Int) ≤ i.toInt) (h1 : i.toInt < N) :
    0 ≤ (wrapIdx N i).toInt ∧ (wrapIdx N i).toInt ≤ (N : Int) - 1 := by
  have hq : (N : Int) < 1073741824 := by
    have h30 : (2 : Nat) ^ 30 = 1073741824 := by norm_num
    omega
  unfold wrapIdx Scalar.select
  by_cases hneg : i.toInt < 0
  · have hc : IntOp.cmpi .slt i 0#32 = 1 := IntOp.cmpi_slt.mpr (by simpa using hneg)
    rw [if_pos hc]
    unfold IntOp.addi
    have hNi : (BitVec.ofNat 32 N).toInt = (N : Int) := StableHlo.Predicate.toInt_ofNat_small N (by omega)
    rw [BitVec.toInt_add, hNi]
    have hb : (i.toInt + (N : Int)).bmod (2 ^ 32) = i.toInt + N := by
      rw [Int.bmod_def]
      have hp : ((2 : Nat) ^ 32 : Nat) = 4294967296 := by norm_num
      simp only [hp]
      omega
    rw [hb]
    omega
  · have hc : ¬ IntOp.cmpi .slt i 0#32 = 1 := fun h => hneg (by simpa using IntOp.cmpi_slt.mp h)
    rw [if_neg hc]
    omega

end RowGather

end
-- ==== Proof.GatheredTable.lean ====
/-
  The gathered table: the kernel's one masked lookup against the reference's two lookups.

  The kernel looks rows up in the 65-column table [weights | norm]: it wraps a negative index by adding the row count,
  marks the wrapped indices that lie in [0, 99999], gathers (the gather clamps into that range), and keeps the gathered row
  where the mark is set. The reference wraps the same way and gathers the weights and the norm separately, clamped. When
  every source index lies in [−100000, 100000) every wrapped index is in range, every mark is set, and both read the
  same row: the kernel's table is the reference's two gathers side by side.
-/
import proofs.«423922_j14456859918894_1_alg».proof.Proof.Gen.KernelIdeal
import proofs.«423922_j14456859918894_1_alg».proof.Proof.Gen.ReferenceIdeal.Read
import proofs.«423922_j14456859918894_1_alg».proof.Proof.RefMessage
import proofs.«423922_j14456859918894_1_alg».proof.Proof.LibRowGather
import proofs.«423922_j14456859918894_1_alg».proof.Proof.LibRowLayers

noncomputable section

namespace GatheredTable

open Idealize.ShloMosaic Idealize.ShloMosaic.ValueIdx
open Cert.KernelIdeal Cert.KernelIdeal.Facts₀ Cert.KernelIdeal.Facts

/-- The column of wrapped source indices: i + 100000 where i is negative, else i. -/
def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The kernel's lookup: the gathered rows where the wrapped index is in [0, 99999], a fill value elsewhere. -/
def takeTerm (tbl : FVec Ideal S100000x65 .f32) (src : IVec S1600000 32) : FVec Ideal S1600000x65 .f32 :=
  select (broadcastInDim S1600000x65 ![0] bcast_S1600000_S1600000x65_0
      (Host.reduce IntOp.andi
        (andi (cmpi .sge (wrapCol src) (broadcastInDim S1600000x1 ![] bcast_S_S1600000x1 (constantI S_ 32 0#32)))
          (cmpi .sle (wrapCol src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x65_S1600000x1_S1600000x65_1_0_n_n_0_1_165 tbl (wrapCol src))
    (broadcastInDim S1600000x65 ![] bcast_S_S1600000x65 (constant S_ .f32 0x7FC00000#32))

/-- A source index in [−100000, 100000) wraps into [0, 99999]. -/
theorem wrap_le (src : IVec S1600000 32)
    (hsrc : ∀ i, (-100000 : Int) ≤ (src i).toInt ∧ (src i).toInt < 100000) (k : S1600000.Idx) :
    0 ≤ (RowGather.wrapIdx 100000 (src k)).toInt ∧ (RowGather.wrapIdx 100000 (src k)).toInt ≤ 99999 := by
  have h := RowGather.wrapIdx_range 100000 (by norm_num) (src k) (by have := (hsrc k).1; push_cast; exact this)
    (by have := (hsrc k).2; push_cast; exact this)
  push_cast at h
  exact ⟨h.1, by omega⟩

/-- Every wrapped index is in [0, 99999] when every source index is in [−100000, 100000). -/
theorem wrapCol_range (src : IVec S1600000 32)
    (hsrc : ∀ i, (-100000 : Int) ≤ (src i).toInt ∧ (src i).toInt < 100000) (i : S1600000x1.Idx) :
    0 ≤ (wrapCol src i).toInt ∧ (wrapCol src i).toInt ≤ 99999 :=
  wrap_le src hsrc _

/-- Under that range the mark is set everywhere, so the lookup at (e, j) is entry j of the table's row numbered by
    the wrapped index of edge e (the clamp into [0, 99999] kept as the gather applies it). -/
theorem takeTerm_apply (tbl : FVec Ideal S100000x65 .f32) (src : IVec S1600000 32)
    (hsrc : ∀ i, (-100000 : Int) ≤ (src i).toInt ∧ (src i).toInt < 100000) (e : Fin 1600000) (j : Fin 65) :
    takeTerm tbl src (ix2 e j)
      = tbl (ix2 ⟨min (wrapCol src (ix2 e (0 : Fin 1))).toInt.toNat (100000 - 1), by omega⟩ j) := by
  have hel : ∀ i : S1600000x1.Idx,
      andi (cmpi .sge (wrapCol src) (broadcastInDim S1600000x1 ![] bcast_S_S1600000x1 (constantI S_ 32 0#32)))
        (cmpi .sle (wrapCol src) (broadcastInDim S1600000x1 ![0, 1] bcast_S1x1_S1600000x1_0_1
          (broadcastInDim S1x1 ![1] bcast_S1_S1x1_1 (constantI S1 32 99999#32)))) i = 1#1 := fun i => by
    obtain ⟨h0, h1⟩ := wrapCol_range src hsrc i
    refine IntOp.andi_eq_one.mpr ⟨IntOp.cmpi_sge.mpr ?_, IntOp.cmpi_sle.mpr ?_⟩
    · show (0#32 : BitVec 32).toInt ≤ (wrapCol src i).toInt
      have e0 : (0#32 : BitVec 32).toInt = 0 := by decide
      rw [e0]; exact h0
    · show (wrapCol src i).toInt ≤ (99999#32 : BitVec 32).toInt
      have e1 : (99999#32 : BitVec 32).toInt = 99999 := by decide
      rw [e1]; exact h1
  have hmask := fun k => RowGather.reduce_andi_ones _ (constantI S_ 1 1#1) reducesTo_S1600000x1_S1600000_d1 h_S_ hel rfl k
  unfold takeTerm
  show Scalar.select (Host.reduce IntOp.andi _ (constantI S_ 1 1#1) reducesTo_S1600000x1_S1600000_d1 h_S_ _) _ _ = _
  rw [hmask]
  show Host.gather gather_S100000x65_S1600000x1_S1600000x65_1_0_n_n_0_1_165 tbl (wrapCol src) (ix2 e j) = _
  exact RowGather.gather_rows_apply (by norm_num) _ tbl (wrapCol src) e j

/-! ## Against the reference's two gathers -/

open Cert.ReferenceIdeal.Read in
/-- The reference's column of wrapped indices (for the weights) is the kernel's. -/
theorem wrapCol_eq_weights (x7 : IVec S1600000 32) : val_main_v25 (F := Ideal) x7 = wrapCol x7 := rfl

open Cert.ReferenceIdeal.Read in
/-- The reference's column of wrapped indices (for the norm) is the kernel's. -/
theorem wrapCol_eq_norm (x7 : IVec S1600000 32) : val_main_v35 (F := Ideal) x7 = wrapCol x7 := rfl

open Cert.ReferenceIdeal.Read in
/-- The tables agree: with every source index in [−100000, 100000), the kernel's masked lookup in [weights | norm] is the
    reference's gathered weights in columns 0 … 63 and its gathered norm in column 64. -/
theorem table_eq (x0 : FVec Ideal S100000x64 .f32) (x5 : FVec Ideal S100000x1 .f32) (x7 : IVec S1600000 32)
    (hsrc : ∀ i, (-100000 : Int) ≤ (x7 i).toInt ∧ (x7 i).toInt < 100000) :
    takeTerm (concatenate S100000x65 1 [⟨S100000x64, x0⟩, ⟨S100000x1, x5⟩] concatenates_S100000x64_S100000x1_S100000x65_d1) x7
      = RefMessage.augRef x0 x5 x7 := by
  funext i
  obtain ⟨e, j, rfl⟩ : ∃ (e : Fin 1600000) (j : Fin 65), i = ix2 e j := ⟨i 0, i 1, eq_ix2 i⟩
  rw [takeTerm_apply _ _ hsrc]
  unfold RefMessage.augRef
  by_cases h : j.val < 64
  · rw [dif_pos (show ((ix2 e j : (⟨2, ![1600000, 65]⟩ : Shape).Idx) 1).val < 64 from h)]
    rw [RowLayers.catCols_left _ x0 x5 _ j ⟨j.val, h⟩ rfl]
    unfold val_main_v26
    rw [wrapCol_eq_weights]
    exact (RowGather.gather_rows_apply (by norm_num) _ x0 (wrapCol x7) e ⟨j.val, h⟩).symm
  · have hj : j.val = 64 := by have := j.isLt; omega
    rw [dif_neg (show ¬ ((ix2 e j : (⟨2, ![1600000, 65]⟩ : Shape).Idx) 1).val < 64 from h)]
    rw [RowLayers.catCols_right _ x0 x5 _ j (0 : Fin 1) (by show 0 + 64 = j.val; omega)]
    unfold val_main_v36
    rw [wrapCol_eq_norm]
    exact (RowGather.gather_rows_apply (by norm_num) _ x5 (wrapCol x7) e (0 : Fin 1)).symm

end GatheredTable

end
-- ==== Proof.KernelValue.lean ====
/-
  What the kernel program's result buffer holds at the end, as a function of the argument arrays.

  Walking the program backwards: the result is the scaling region's output, rows of the summed messages times the
  destination norm; the summed messages are the scatter-add, over the destination indices, of the edge region's output
  from zeros; the edge region's output is the message array of the feature array, the gathered table and the three
  parameter arrays; the gathered table is the masked lookup in [weights | norm] at the source indices. Every argument
  array is as launched when it is read: no host operation and no region writes one. When every source index names a
  row of the table, each of these is, entry by entry, what the whole-array program computes at the same place, so the
  result buffer ends at the whole-array program's own result term of the same arrays.
-/
import proofs.«423922_j14456859918894_1_alg».proof.Proof.KernelRun
import proofs.«423922_j14456859918894_1_alg».proof.Proof.EdgeRegion
import proofs.«423922_j14456859918894_1_alg».proof.Proof.ScaleRegion
import proofs.«423922_j14456859918894_1_alg».proof.Proof.GatheredTable
import Idealize.ShloMosaic.Lib.StableHlo.Run

set_option maxRecDepth 16384

noncomputable section

open Idealize.ShloMosaic Idealize.ShloMosaic.TcCoe Idealize.SL.Sem Idealize.ShloMosaic.StableHlo

namespace KernelValue

open Cert.KernelIdeal Cert.KernelIdeal.Gen
open Cert.KernelIdeal (Facts₀)
open Idealize.ShloMosaic.ValueIdx EdgeMessage GatheredTable
open Cert.ReferenceIdeal.Read (val_main_v38 val_main_v39 val_main_v40 val_main_v41 val_main_v42 val_main_v43 idx_main_v42
  val_main_v43_apply val_main_v42_apply)

variable (m : (ℓ : Loc nD τ sig) → Buf (Elt Ideal) ℓ) (ρ : Dev nD → PrngReg)

/-- The source indices as launched, at their literal type. -/
abbrev srcArr (c : Dev nD) : IVec S1600000 32 := m ((c : Thread nD τ).loc main_arg7)

/-! ## Typed references: carrying contents to a buffer's own type and back changes nothing -/

/-- Contents carried into a typed reference's buffer type and back are unchanged. -/
theorem ofBuf_toBuf {T : BufTy} (x : TRef sig T) (v : T.Contents (Elt Ideal)) : x.ofBuf (x.toBuf v) = v := by
  obtain ⟨r, h, h2, h3⟩ := x
  subst h
  rfl

/-- At the source-index argument the carrying is the identity. -/
theorem ofBuf_src (h1 : (main_arg7 : Ref sig .tc).ty = ⟨S1600000, .i32⟩) (h2 h3)
    (v : (main_arg7 : Ref sig .tc).ty.Contents (Elt Ideal)) :
    ((TRef.of main_arg7 h1 h2 h3 : TRef sig ⟨S1600000, .i32⟩).ofBuf v : IVec S1600000 32) = v := rfl

/-- At the table's buffer the carrying is the identity. -/
theorem ofBuf_table (h1 : (main_v0 : Ref sig .tc).ty = ⟨S100000x65, .f32⟩) (h2 h3)
    (v : (main_v0 : Ref sig .tc).ty.Contents (Elt Ideal)) :
    ((TRef.of main_v0 h1 h2 h3 : TRef sig ⟨S100000x65, .f32⟩).ofBuf v : FVec Ideal S100000x65 .f32) = v := rfl

/-- At the lookup's result buffer the carrying is the identity. -/
theorem toBuf_result (h1 : (main_v1 : Ref sig .tc).ty = ⟨S1600000x65, .f32⟩) (h2 h3)
    (v : (⟨S1600000x65, .f32⟩ : BufTy).Contents (Elt Ideal)) :
    (TRef.of main_v1 h1 h2 h3 : TRef sig ⟨S1600000x65, .f32⟩).toBuf v = v := rfl

/-! ## The arrays the edge region finds -/

theorem rf_eq (c : Dev nD) : EdgeRegion.rfArr (V2 m ρ) c = m ((c : Thread nD τ).loc main_arg4) := by
  show StableHlo.after hostOps0_1 (StableHlo.after hostOps0 (W0 m ρ c)) (Proc.devRef .tc main_arg4) = _
  after_results_simp <;> rfl

theorem pw_eq (c : Dev nD) : EdgeRegion.pwArr (V2 m ρ) c = m ((c : Thread nD τ).loc main_arg1) := by
  show StableHlo.after hostOps0_1 (StableHlo.after hostOps0 (W0 m ρ c)) (Proc.devRef .tc main_arg1) = _
  after_results_simp <;> rfl

theorem rsw_eq (c : Dev nD) : EdgeRegion.rswArr (V2 m ρ) c = m ((c : Thread nD τ).loc main_arg2) := by
  show StableHlo.after hostOps0_1 (StableHlo.after hostOps0 (W0 m ρ c)) (Proc.devRef .tc main_arg2) = _
  after_results_simp <;> rfl

theorem rw_eq (c : Dev nD) : EdgeRegion.rwArr (V2 m ρ) c = m ((c : Thread nD τ).loc main_arg3) := by
  show StableHlo.after hostOps0_1 (StableHlo.after hostOps0 (W0 m ρ c)) (Proc.devRef .tc main_arg3) = _
  after_results_simp <;> rfl

set_option maxHeartbeats 1000000 in
/-- The gathered table the edge region finds is the masked lookup in [weights | norm] at the source indices: the
    lookup stretch's operations read off one after the other, the carrying between typed references dropped. -/
theorem aug_eq (c : Dev nD) : EdgeRegion.augArr (V2 m ρ) c
    = takeTerm (concatenate S100000x65 1 [⟨S100000x64, m ((c : Thread nD τ).loc main_arg0)⟩,
          ⟨S100000x1, m ((c : Thread nD τ).loc main_arg5)⟩] Facts₀.concatenates_S100000x64_S100000x1_S100000x65_d1)
        (srcArr m c) := by
  show StableHlo.after hostOps0_1 (W1 m ρ c) (Proc.devRef .tc main_v1) = _
  after_results_simp
  simp only [ofBuf_toBuf]
  simp only [ofBuf_src, ofBuf_table, toBuf_result]
  unfold takeTerm wrapCol
  rfl

/-- Entry (e, j) of that table, when every source index lies in [−100000, 100000): the reference's gathered weight
    (j below 64) or gathered norm (j = 64). -/
theorem aug_apply (c : Dev nD)
    (hsrc : ∀ i, (-100000 : Int) ≤ (srcArr m c i).toInt ∧ (srcArr m c i).toInt < 100000)
    (e : Fin 1600000) (j : Fin 65) :
    EdgeRegion.augArr (V2 m ρ) c (ix2 e j)
      = RefMessage.augRef (m ((c : Thread nD τ).loc main_arg0)) (m ((c : Thread nD τ).loc main_arg5)) (srcArr m c)
          (ix2 e j) := by
  rw [aug_eq m ρ c]
  exact congrFun (table_eq _ _ _ hsrc) (ix2 e j)

/-- The edge region's output is the whole-array program's message array of the argument arrays. -/
theorem msg_eq (c : Dev nD)
    (hsrc : ∀ i, (-100000 : Int) ≤ (srcArr m c i).toInt ∧ (srcArr m c i).toInt < 100000) :
    EdgeRegion.msgArr (V2 m ρ) c
      = val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (srcArr m c) := by
  funext y
  obtain ⟨e, j, rfl⟩ : ∃ (e : Fin 1600000) (j : Fin 64), y = ix2 e j := ⟨y 0, y 1, eq_ix2 y⟩
  rw [RefMessage.ref_msg]
  show msgAt (EdgeRegion.rfArr (V2 m ρ) c) (EdgeRegion.augArr (V2 m ρ) c) (EdgeRegion.pwArr (V2 m ρ) c)
    (EdgeRegion.rswArr (V2 m ρ) c) (EdgeRegion.rwArr (V2 m ρ) c) e j = _
  exact EdgeRegion.msgAt_rows (fun p : Fin 1600000 => p) _ _ _ _ _ _ _ _ _ _
    (fun p k => congrFun (rf_eq m ρ c) (ix2 p k)) (fun p k => aug_apply m ρ c hsrc p k)
    (pw_eq m ρ c) (rsw_eq m ρ c) (rw_eq m ρ c) e j

/-! ## The arrays the scaling region finds -/

theorem ci_eq (c : Dev nD) : ScaleRegion.ciArr (V4 m ρ) c = m ((c : Thread nD τ).loc main_arg6) := by
  show StableHlo.after hostOps1 (W3 m ρ c) (Proc.devRef .tc main_arg6) = _
  after_results_simp
  rw [W3_of_ne m ρ c main_arg6 (by decide)]
  show StableHlo.after hostOps0_1 (StableHlo.after hostOps0 (W0 m ρ c)) (Proc.devRef .tc main_arg6) = _
  after_results_simp <;> rfl

theorem dst_eq (c : Dev nD) : W3 m ρ c (Proc.devRef .tc main_arg8) = m ((c : Thread nD τ).loc main_arg8) := by
  rw [W3_of_ne m ρ c main_arg8 (by decide)]
  show StableHlo.after hostOps0_1 (StableHlo.after hostOps0 (W0 m ρ c)) (Proc.devRef .tc main_arg8) = _
  after_results_simp <;> rfl

/-- The summed messages the scaling region finds are the whole-array program's: the same scatter-add, from zeros, over
    the same destination indices, of the same message array. -/
theorem h_eq (c : Dev nD)
    (hsrc : ∀ i, (-100000 : Int) ≤ (srcArr m c i).toInt ∧ (srcArr m c i).toInt < 100000) :
    ScaleRegion.hArr (V4 m ρ) c
      = val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (srcArr m c) (m ((c : Thread nD τ).loc main_arg8)) := by
  show StableHlo.after hostOps1 (W3 m ρ c) (Proc.devRef .tc main_v5) = _
  after_results
  rw [dst_eq m ρ c,
    show W3 m ρ c (Proc.devRef .tc main_v2) = _ from (W3_arr m ρ c 5).trans (EdgeRegion.final (V2 m ρ) c),
    msg_eq m ρ c hsrc]
  rfl

/-- The result buffer at the end holds the whole-array program's result term of the argument arrays. -/
theorem result_eq (c : Dev nD)
    (hsrc : ∀ i, (-100000 : Int) ≤ (srcArr m c i).toInt ∧ (srcArr m c i).toInt < 100000) :
    W5 m ρ c (Proc.devRef .tc main_v6)
      = val_main_v43 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (srcArr m c)
          (m ((c : Thread nD τ).loc main_arg8)) := by
  refine ((W5_arr m ρ c 2).trans (ScaleRegion.final (V4 m ρ) c)).trans ?_
  funext i
  have hidx : idx_main_v42 i = ix2 (i 0) (0 : Fin 1) :=
    funext fun a => by match a with | ⟨0, _⟩ => rfl | ⟨1, _⟩ => rfl
  rw [val_main_v43_apply, val_main_v42_apply, hidx]
  show ScaleRegion.hArr (V4 m ρ) c (ix2 (i 0) (i 1)) * ScaleRegion.ciArr (V4 m ρ) c (ix2 (i 0) (0 : Fin 1)) = _
  rw [h_eq m ρ c hsrc, ci_eq m ρ c]
  exact congrArg₂ (· * ·) (congrArg _ (eq_ix2 i).symm) rfl

/-- The kernel program's run, read: every weakly fair execution terminates without a fault, the result buffer at the
    whole-array program's result term of the argument arrays, the arguments unchanged. -/
theorem run (hsrc : ∀ (c : Dev nD) i, (-100000 : Int) ≤ (srcArr m c i).toInt ∧ (srcArr m c i).toInt < 100000) :
    θ_run defs (onTc (τ := τ) (main (F := Ideal))) ⟨m, fun _ => 0, ρ⟩ (fun r => ∀ c : Dev nD,
      r.2.mem ((c.tc : Thread nD τ).loc main_v6)
        = val_main_v43 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c (hsrc c)), (h c).2⟩)
    (Cert.KernelIdeal.Run.run_named m ρ)

end KernelValue

end
-- ==== Proof.lean ====
/-
  Equivalence, over the extended reals, of a graph-convolution message-passing layer written as two tiled kernels
  around a gather and a scatter-add, against its whole-array reference.

  Per edge e with source s and destination d the layer forms the message

      m[e, :] = ( weight[s, :] · σ(f · prob_w)  +  (f · review_wᵀ) · σ(f · review_score_w) ) · cj[s],    f = review_feat[e, :],

  sums the messages of the edges into their destination rows, and scales row d by ci[d]. The kernel program gathers
  the table [weight | cj] once, forms the messages 8000 edges at a time, scatter-adds, and scales 4000 rows at a time.
  Exactly (floats as extended reals, narrowing to bf16 the identity, a tile's matrix product and lane sum the same sums
  as the whole-array product) both programs compute the same function provided every source index names a row of the
  table, −100000 ≤ src_idx < 100000 (a negative index counting from the end): outside that range the kernel's lookup
  fills with a fixed value where the reference's clamps to the last or first row. That range is the one conjunct added
  to the precondition; finiteness of the float inputs is never used, since no law beyond the programs' own order of
  operations is needed.

  The frames of the two kernel programs are the generated ones; the reference's is its generated run with the result
  dropped; nothing is rewritten by the idealization, so the preservation conjunct is trivial.
-/
import proofs.«423922_j14456859918894_1_alg».proof.Defs
import proofs.«423922_j14456859918894_1_alg».proof.Proof.Gen.Kernel
import proofs.«423922_j14456859918894_1_alg».proof.Proof.Gen.Kernel.Skeleton
import proofs.«423922_j14456859918894_1_alg».proof.Proof.Gen.Kernel.Launch
import proofs.«423922_j14456859918894_1_alg».proof.Proof.Gen.Kernel.Points
import proofs.«423922_j14456859918894_1_alg».proof.Proof.Gen.Kernel.Frame
import proofs.«423922_j14456859918894_1_alg».proof.Proof.Gen.KernelIdeal
import proofs.«423922_j14456859918894_1_alg».proof.Proof.Gen.KernelIdeal.Skeleton
import proofs.«423922_j14456859918894_1_alg».proof.Proof.Gen.KernelIdeal.Launch
import proofs.«423922_j14456859918894_1_alg».proof.Proof.Gen.KernelIdeal.Points
import proofs.«423922_j14456859918894_1_alg».proof.Proof.Gen.KernelIdeal.Frame
import proofs.«423922_j14456859918894_1_alg».proof.Proof.Gen.ReferenceIdeal
import proofs.«423922_j14456859918894_1_alg».proof.Proof.Gen.ReferenceIdeal.Run
import proofs.«423922_j14456859918894_1_alg».proof.Proof.Gen.ReferenceIdeal.Read
import proofs.«423922_j14456859918894_1_alg».proof.Proof.Gen.Pre_finite_inputs
import proofs.«423922_j14456859918894_1_alg».proof.Proof.PreRange
import proofs.«423922_j14456859918894_1_alg».proof.Proof.KernelValue
import Idealize.ShloMosaic.Adequacy
import Idealize.ShloMosaic.Init

noncomputable section

namespace Cert.Proof

open Idealize.ShloMosaic Idealize.SL.Sem

/-- The idealized kernel program and the idealized reference, run from memories that agree on the arguments, end with
    the same result. The common value is the whole-array program's result term of the arguments: the reference's run ends
    there by its own operations, and the kernel program's run ends there because, under the precondition's index range,
    each stage of it computes entry by entry what the whole-array program computes at the same place. -/
theorem algebraic : Cert.algebraic_KernelIdeal_ReferenceIdeal := by
  intro m ρ m' ρ' hpre hagree
  have hsrc : ∀ (c : Dev Cert.KernelIdeal.nD) i, (-100000 : Int) ≤ (KernelValue.srcArr m c i).toInt
      ∧ (KernelValue.srcArr m c i).toInt < 100000 := fun c => PreRange.src_range _ _ _ _ _ _ _ _ _ (hpre c)
  refine ⟨fun c => Cert.ReferenceIdeal.Read.val_main_v43 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    KernelValue.run m ρ hsrc, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact Cert.ReferenceIdeal.Read.val_main_v43_eq _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
